-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x512 : Shape := ⟨3, ![32, 2048, 512]⟩
abbrev S2048x256 : Shape := ⟨2, ![2048, 256]⟩
abbrev S1024x512 : Shape := ⟨2, ![1024, 512]⟩
abbrev S1024 : Shape := ⟨1, ![1024]⟩
abbrev S1024x256 : Shape := ⟨2, ![1024, 256]⟩
abbrev S_ : Shape := ⟨0, ![]⟩

class Facts : Prop where
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x256 .f32) (main_arg5 : FVec F S1024 .f32) (main_arg6 : FVec F S1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x256 .f32 := Host.absf main_arg4
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_v33

def fn {F : FTy → Type} [FloatOps F] (main_arg0 : FVec F S32x2048x512 .f32) (main_arg1 : FVec F S2048x256 .f32) (main_arg2 : FVec F S1024x512 .f32) (main_arg3 : FVec F S1024 .f32) (main_arg4 : FVec F S1024x256 .f32) (main_arg5 : FVec F S1024 .f32) (main_arg6 : FVec F S1024 .f32) (main_arg7 : FVec F S1024 .f32) : IVec S_ 1 :=
  let main_v0 : FVec F S32x2048x512 .f32 := Host.absf main_arg0
  let main_cst : FVec F S_ .f32 := constant S_ .f32 0x7F800000#32
  let main_v1 : FVec F S32x2048x512 .f32 := broadcastInDim S32x2048x512 ![] bcast_S_S32x2048x512 main_cst
  let main_v2 : IVec S32x2048x512 1 := cmpf .olt main_v0 main_v1
  let main_c : IVec S_ 1 := constantI S_ 1 1#1
  let main_v3 : IVec S_ 1 := (fun x v => Host.reduce IntOp.andi x v reducesTo_S32x2048x512_S_d0_1_2 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S32x2048x512 : Shape := ⟨3, ![32, 2048, 512]⟩
abbrev S2048x256 : Shape := ⟨2, ![2048, 256]⟩
abbrev S1024x512 : Shape := ⟨2, ![1024, 512]⟩
abbrev S1024 : Shape := ⟨1, ![1024]⟩
abbrev S1024x256 : Shape := ⟨2, ![1024, 256]⟩
abbrev S2048x1024 : Shape := ⟨2, ![2048, 1024]⟩
abbrev S256x256 : Shape := ⟨2, ![256, 256]⟩
abbrev S256x1024 : Shape := ⟨2, ![256, 1024]⟩
abbrev S1x1024 : Shape := ⟨2, ![1, 1024]⟩
abbrev S32x2048x1024 : Shape := ⟨3, ![32, 2048, 1024]⟩
abbrev S8x256x512 : Shape := ⟨3, ![8, 256, 512]⟩
abbrev S8x256x1024 : Shape := ⟨3, ![8, 256, 1024]⟩
abbrev S2048x512 : Shape := ⟨2, ![2048, 512]⟩
abbrev S1x256x1024 : Shape := ⟨3, ![1, 256, 1024]⟩
abbrev S8x256 : Shape := ⟨2, ![8, 256]⟩
abbrev S8x256x1 : Shape := ⟨3, ![8, 256, 1]⟩
abbrev S1x1x1024 : Shape := ⟨3, ![1, 1, 1024]⟩

abbrev nBuf : Space → Nat
  | .hbm => 14
  | .vmem => 16
  | .smem => 0
  | _ => 0

abbrev bufTy : (tb : Table) → Fin (tcTables nBuf tb) → BufTy
  | .hbm, ⟨0, _⟩ => ⟨S32x2048x512, .f32⟩
  | .hbm, ⟨1, _⟩ => ⟨S2048x256, .f32⟩
  | .hbm, ⟨2, _⟩ => ⟨S1024x512, .f32⟩
  | .hbm, ⟨3, _⟩ => ⟨S1024, .f32⟩
  | .hbm, ⟨4, _⟩ => ⟨S1024x256, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S32x2048x512, .bf16⟩
  | .hbm, ⟨9, _⟩ => ⟨S2048x256, .bf16⟩
  | .hbm, ⟨10, _⟩ => ⟨S1024x512, .bf16⟩
  | .hbm, ⟨11, _⟩ => ⟨S1024x256, .bf16⟩
  | .hbm, ⟨12, _⟩ => ⟨S2048x1024, .f32⟩
  | .hbm, ⟨13, _⟩ => ⟨S32x2048x1024, .f32⟩
  | .local _ .vmem, ⟨0, _⟩ => ⟨S256x256, .bf16⟩
  | .local _ .vmem, ⟨1, _⟩ => ⟨S256x256, .bf16⟩
  | .local _ .vmem, ⟨2, _⟩ => ⟨S1024x256, .bf16⟩
  | .local _ .vmem, ⟨3, _⟩ => ⟨S1024, .f32⟩
  | .local _ .vmem, ⟨4, _⟩ => ⟨S256x1024, .f32⟩
  | .local _ .vmem, ⟨5, _⟩ => ⟨S256x1024, .f32⟩
  | .local _ .vmem, ⟨6, _⟩ => ⟨S8x256x512, .bf16⟩
  | .local _ .vmem, ⟨7, _⟩ => ⟨S8x256x512, .bf16⟩
  | .local _ .vmem, ⟨8, _⟩ => ⟨S1024x512, .bf16⟩
  | .local _ .vmem, ⟨9, _⟩ => ⟨S1024, .f32⟩
  | .local _ .vmem, ⟨10, _⟩ => ⟨S256x1024, .f32⟩
  | .local _ .vmem, ⟨11, _⟩ => ⟨S256x1024, .f32⟩
  | .local _ .vmem, ⟨12, _⟩ => ⟨S1024, .f32⟩
  | .local _ .vmem, ⟨13, _⟩ => ⟨S1024, .f32⟩
  | .local _ .vmem, ⟨14, _⟩ => ⟨S8x256x1024, .f32⟩
  | .local _ .vmem, ⟨15, _⟩ => ⟨S8x256x1024, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S8x256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S8x256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  inb_S8x256x512_S8x256x512_0_0_0 : ∀ a, (![0, 0, 0] : Fin 3 → Nat) a + S8x256x512.size a ≤ S8x256x512.size a
  h_S8x256x512 : 0 < S8x256x512.numel
  shapeCasts_S8x256x512_S8x256x512 : S8x256x512.ShapeCasts S8x256x512
  shapeCasts_S8x256x512_S2048x512 : S8x256x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  broadcasts_S1x1024_S2048x1024 : S1x1024.Broadcasts S2048x1024
  shapeCasts_S2048x1024_S8x256x1024 : S2048x1024.ShapeCasts S8x256x1024
  shapeCasts_S256x1024_S256x1024 : S256x1024.ShapeCasts S256x1024
  shapeCasts_S256x1024_S1x256x1024 : S256x1024.ShapeCasts S1x256x1024
  broadcasts_S1x256x1024_S8x256x1024 : S1x256x1024.Broadcasts S8x256x1024
  reduces_S8x256x1024_S8x256 : S8x256x1024.Reduces [2] S8x256
  shapeCasts_S8x256_S8x256x1 : S8x256.ShapeCasts S8x256x1
  broadcasts_S8x256x1_S8x256x1024 : S8x256x1.Broadcasts S8x256x1024
  shapeCasts_S1024_S1x1x1024 : S1024.ShapeCasts S1x1x1024
  broadcasts_S1x1x1024_S8x256x1024 : S1x1x1024.Broadcasts S8x256x1024
  inb_S8x256x1024_S8x256x1024_0_0_0 : ∀ a, (![0, 0, 0] : Fin 3 → Nat) a + S8x256x1024.size a ≤ S8x256x1024.size a
  h_S8x256x1024 : 0 < S8x256x1024.numel
  dot_S256x256_S1024x256_S256x1024_1_1_0_0_n_n_wf : DotDims.WF S256x256 S1024x256 S256x1024 [1] [1] [0] [0] [] []
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S2048x256.size a
  hwx0_0 : ∀ i : grid0.Coords, EltTy.bits .bf16 = 32 ∨ (Rect.block (s := S2048x256) S256x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S2048x1024.size a
  hwx0_3 : ∀ i : grid0.Coords, EltTy.bits .f32 = 32 ∨ (Rect.block (s := S2048x1024) S256x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x512.size a ≤ S32x2048x512.size a
  hwx1_0 : ∀ i : grid1.Coords, EltTy.bits .bf16 = 32 ∨ (Rect.block (s := S32x2048x512) S8x256x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x512.size a
  hwx1_1 : ∀ i : grid1.Coords, EltTy.bits .bf16 = 32 ∨ (Rect.block (s := S1024x512) S1024x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S2048x1024.size a
  hwx1_3 : ∀ i : grid1.Coords, EltTy.bits .f32 = 32 ∨ (Rect.block (s := S2048x1024) S256x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S1024.size a
  hwx1_4 : ∀ i : grid1.Coords, EltTy.bits .f32 = 32 ∨ (Rect.block (s := S1024) S1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024.size a ≤ S1024.size a
  hwx1_5 : ∀ i : grid1.Coords, EltTy.bits .f32 = 32 ∨ (Rect.block (s := S1024) S1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8x256x1024.size a ≤ S32x2048x1024.size a
  hwx1_6 : ∀ i : grid1.Coords, EltTy.bits .f32 = 32 ∨ (Rect.block (s := S32x2048x1024) S8x256x1024.size (cc1_transform_6 i) (hinb1_6 i)).WholeWords (EltTy.packing .f32)

variable [Facts₀]

def dot_S256x256_S1024x256_S256x1024_1_1_0_0_n_n : DotDims S256x256 S1024x256 S256x1024 where
  lhsContracting := [1]
  rhsContracting := [1]
  lhsNonContracting := [0]
  rhsNonContracting := [0]
  lhsBatch := []
  rhsBatch := []
  wf := dot_S256x256_S1024x256_S256x1024_1_1_0_0_n_n_wf
def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v1) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S8x256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S256x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S8x256x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S32x2048x512 : Shape := ⟨3, ![32, 2048, 512]⟩
abbrev S2048x256 : Shape := ⟨2, ![2048, 256]⟩
abbrev S1024x512 : Shape := ⟨2, ![1024, 512]⟩
abbrev S1024 : Shape := ⟨1, ![1024]⟩
abbrev S1024x256 : Shape := ⟨2, ![1024, 256]⟩
abbrev S32x2048x1024 : Shape := ⟨3, ![32, 2048, 1024]⟩
abbrev S1x1x1024 : Shape := ⟨3, ![1, 1, 1024]⟩
abbrev S_ : Shape := ⟨0, ![]⟩
abbrev S2048x1024 : Shape := ⟨2, ![2048, 1024]⟩
abbrev S1x1024 : Shape := ⟨2, ![1, 1024]⟩
abbrev S1x2048x1024 : Shape := ⟨3, ![1, 2048, 1024]⟩
abbrev S32x2048 : Shape := ⟨2, ![32, 2048]⟩
abbrev S32x2048x1 : Shape := ⟨3, ![32, 2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S32x2048x512, .f32⟩
  | .hbm, ⟨1, _⟩ => ⟨S2048x256, .f32⟩
  | .hbm, ⟨2, _⟩ => ⟨S1024x512, .f32⟩
  | .hbm, ⟨3, _⟩ => ⟨S1024, .f32⟩
  | .hbm, ⟨4, _⟩ => ⟨S1024x256, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S32x2048x1024, .f32⟩
  | .hbm, ⟨9, _⟩ => ⟨S1x1x1024, .f32⟩
  | .hbm, ⟨10, _⟩ => ⟨S32x2048x1024, .f32⟩
  | .hbm, ⟨11, _⟩ => ⟨S32x2048x1024, .f32⟩
  | .hbm, ⟨12, _⟩ => ⟨S_, .f32⟩
  | .hbm, ⟨13, _⟩ => ⟨S32x2048x1024, .f32⟩
  | .hbm, ⟨14, _⟩ => ⟨S32x2048x1024, .i1⟩
  | .hbm, ⟨15, _⟩ => ⟨S_, .f32⟩
  | .hbm, ⟨16, _⟩ => ⟨S32x2048x1024, .f32⟩
  | .hbm, ⟨17, _⟩ => ⟨S32x2048x1024, .f32⟩
  | .hbm, ⟨18, _⟩ => ⟨S32x2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S1x2048x1024, .f32⟩
  | .hbm, ⟨24, _⟩ => ⟨S32x2048x1024, .f32⟩
  | .hbm, ⟨25, _⟩ => ⟨S32x2048x1024, .f32⟩
  | .hbm, ⟨26, _⟩ => ⟨S_, .f32⟩
  | .hbm, ⟨27, _⟩ => ⟨S32x2048, .f32⟩
  | .hbm, ⟨28, _⟩ => ⟨S32x2048x1, .f32⟩
  | .hbm, ⟨29, _⟩ => ⟨S_, .f32⟩
  | .hbm, ⟨30, _⟩ => ⟨S32x2048x1, .f32⟩
  | .hbm, ⟨31, _⟩ => ⟨S32x2048x1, .f32⟩
  | .hbm, ⟨32, _⟩ => ⟨S32x2048x1024, .f32⟩
  | .hbm, ⟨33, _⟩ => ⟨S32x2048x1024, .f32⟩
  | .hbm, ⟨34, _⟩ => ⟨S32x2048x1024, .f32⟩
  | .hbm, ⟨35, _⟩ => ⟨S_, .f32⟩
  | .hbm, ⟨36, _⟩ => ⟨S32x2048, .f32⟩
  | .hbm, ⟨37, _⟩ => ⟨S32x2048x1, .f32⟩
  | .hbm, ⟨38, _⟩ => ⟨S_, .f32⟩
  | .hbm, ⟨39, _⟩ => ⟨S32x2048x1, .f32⟩
  | .hbm, ⟨40, _⟩ => ⟨S32x2048x1, .f32⟩
  | .hbm, ⟨41, _⟩ => ⟨S32x2048x1024, .f32⟩
  | .hbm, ⟨42, _⟩ => ⟨S32x2048x1024, .f32⟩
  | .hbm, ⟨43, _⟩ => ⟨S_, .f32⟩
  | .hbm, ⟨44, _⟩ => ⟨S32x2048x1, .f32⟩
  | .hbm, ⟨45, _⟩ => ⟨S32x2048x1, .f32⟩
  | .hbm, ⟨46, _⟩ => ⟨S32x2048x1, .f32⟩
  | .hbm, ⟨47, _⟩ => ⟨S32x2048x1024, .f32⟩
  | .hbm, ⟨48, _⟩ => ⟨S32x2048x1024, .f32⟩
  | .hbm, ⟨49, _⟩ => ⟨S1x1x1024, .f32⟩
  | .hbm, ⟨50, _⟩ => ⟨S32x2048x1024, .f32⟩
  | .hbm, ⟨51, _⟩ => ⟨S32x2048x1024, .f32⟩
  | .hbm, ⟨52, _⟩ => ⟨S1x1x1024, .f32⟩
  | .hbm, ⟨53, _⟩ => ⟨S32x2048x1024, .f32⟩
  | .hbm, ⟨54, _⟩ => ⟨S32x2048x1024, .f32⟩
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S32x2048x1024_0_1_2 : S1x1x1024.BroadcastsInDim S32x2048x1024 (![0, 1, 2] : Fin 3 → Fin S32x2048x1024.rank)
  bcast_S_S32x2048x1024 : S_.BroadcastsInDim S32x2048x1024 (![] : Fin 0 → Fin S32x2048x1024.rank)
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  bcast_S2048x1024_S1x2048x1024_1_2 : S2048x1024.BroadcastsInDim S1x2048x1024 (![1, 2] : Fin 2 → Fin S1x2048x1024.rank)
  bcast_S1x2048x1024_S32x2048x1024_0_1_2 : S1x2048x1024.BroadcastsInDim S32x2048x1024 (![0, 1, 2] : Fin 3 → Fin S32x2048x1024.rank)
  reducesTo_S32x2048x1024_S32x2048_d2 : S32x2048x1024.ReducesTo [2] S32x2048
  h_S_ : 0 < S_.numel
  bcast_S32x2048_S32x2048x1_0_1 : S32x2048.BroadcastsInDim S32x2048x1 (![0, 1] : Fin 2 → Fin S32x2048x1.rank)
  bcast_S_S32x2048x1 : S_.BroadcastsInDim S32x2048x1 (![] : Fin 0 → Fin S32x2048x1.rank)
  bcast_S32x2048x1_S32x2048x1024_0_1_2 : S32x2048x1.BroadcastsInDim S32x2048x1024 (![0, 1, 2] : Fin 3 → Fin S32x2048x1024.rank)
  dot_S32x2048x512_S1024x512_S32x2048x1024_2_1_01_0_n_n_wf : DotDims.WF S32x2048x512 S1024x512 S32x2048x1024 [2] [1] [0, 1] [0] [] []
  dot_S2048x256_S1024x256_S2048x1024_1_1_0_0_n_n_wf : DotDims.WF S2048x256 S1024x256 S2048x1024 [1] [1] [0] [0] [] []

variable [Facts₀]

def dot_S32x2048x512_S1024x512_S32x2048x1024_2_1_01_0_n_n : DotDims S32x2048x512 S1024x512 S32x2048x1024 where
  lhsContracting := [2]
  rhsContracting := [1]
  lhsNonContracting := [0, 1]
  rhsNonContracting := [0]
  lhsBatch := []
  rhsBatch := []
  wf := dot_S32x2048x512_S1024x512_S32x2048x1024_2_1_01_0_n_n_wf
def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

class Facts : Prop extends Facts₀ where

variable [Facts]
-- ==== Proof.Spec.lean ====
/-
  The feature decoder as one function of its argument arrays, index by index, over the extended reals.

  For a batch entry b, a site n and an output channel d:
    feat(b, n, d)  = (sum over f of input(b, n, f) * W_feat(d, f)) + b_feat(d)        the dense layer
    city(n, d)     = (sum over k of static(n, k) * W_city(d, k)) + b_city(d)          the site's gate
    z(b, n, d)     = leaky(feat(b, n, d)) * city(n, d)                                 the gated activation
    mu(b, n)       = (sum over d of z(b, n, d)) / 1024
    var(b, n)      = (sum over d of (z(b, n, d) - mu(b, n))^2) / 1024
    out(b, n, d)   = (z(b, n, d) - mu(b, n)) * rsqrt(var(b, n) + eps) * gamma(d) + beta(d)
  where leaky(y) is y when y >= 0 and slope * y otherwise. The slope, the divisor 1024 and eps are kept as the
  binary patterns both programs print (the same word on both sides is never evaluated), and the quotient and the
  reciprocal square root are the extended reals' own (total) ones.

  The gate enters `outAt` as an ARRAY: the kernel computes it in a first launch and reads it back in the second,
  the reference computes it in line; both are `cityArr`.
-/
import Idealize.ShloMosaic.PureOps.Ideal
import Idealize.ShloMosaic.Lib.ValueIdx

noncomputable section

open scoped BigOperators

namespace FeatDecoder

open Idealize.ShloMosaic Idealize.ShloMosaic.ValueIdx

/-- The leaky rectifier: `y` where `y ≥ 0`, the slope (the pattern of 0.2 in f32) times `y` elsewhere. -/
def leaky (y : EReal) : EReal :=
  Scalar.select (Ideal.cmp .oge y (Ideal.ofBits .f32 0x00000000#32)) y (Ideal.ofBits .f32 0x3E4CCCCD#32 * y)

/-- The site gate at site `n`, channel `d`: a row of `static` against a row of `W_city`, plus the bias. -/
def cityAt {N : Nat} (s : (⟨2, ![N, 256]⟩ : Shape).Idx → EReal) (wc : (⟨2, ![1024, 256]⟩ : Shape).Idx → EReal)
    (bc : (⟨1, ![1024]⟩ : Shape).Idx → EReal) (n : Fin N) (d : Fin 1024) : EReal :=
  (∑ k : Fin 256, s (ix2 n k) * wc (ix2 d k)) + bc (ix1 d)

/-- The gate as an array over sites and channels. -/
def cityArr {N : Nat} (s : (⟨2, ![N, 256]⟩ : Shape).Idx → EReal) (wc : (⟨2, ![1024, 256]⟩ : Shape).Idx → EReal)
    (bc : (⟨1, ![1024]⟩ : Shape).Idx → EReal) : (⟨2, ![N, 1024]⟩ : Shape).Idx → EReal :=
  fun j => cityAt s wc bc (j 0) (j 1)

/-- The dense layer at (b, n, d): a feature row of the input against a row of `W_feat`, plus the bias. -/
def featAt {B N : Nat} (x : (⟨3, ![B, N, 512]⟩ : Shape).Idx → EReal) (w : (⟨2, ![1024, 512]⟩ : Shape).Idx → EReal)
    (bf : (⟨1, ![1024]⟩ : Shape).Idx → EReal) (b : Fin B) (n : Fin N) (d : Fin 1024) : EReal :=
  (∑ k : Fin 512, x (ix3 b n k) * w (ix2 d k)) + bf (ix1 d)

/-- The gated activation at (b, n, d). -/
def gatedAt {B N : Nat} (x : (⟨3, ![B, N, 512]⟩ : Shape).Idx → EReal) (w : (⟨2, ![1024, 512]⟩ : Shape).Idx → EReal)
    (bf : (⟨1, ![1024]⟩ : Shape).Idx → EReal) (cty : (⟨2, ![N, 1024]⟩ : Shape).Idx → EReal)
    (b : Fin B) (n : Fin N) (d : Fin 1024) : EReal :=
  leaky (featAt x w bf b n d) * cty (ix2 n d)

/-- The mean of a row of 1024 channels: its sum over 1024 (the pattern of 1024.0). -/
def meanOf (z : Fin 1024 → EReal) : EReal :=
  Ideal.div (∑ k : Fin 1024, z k) (Ideal.ofBits .f32 0x44800000#32)

/-- A row normalized at channel `d`: centred, times the reciprocal root of the variance plus eps. -/
def normAt (z : Fin 1024 → EReal) (d : Fin 1024) : EReal :=
  (z d - meanOf z)
    * Ideal.rsqrt (meanOf (fun k => (z k - meanOf z) * (z k - meanOf z)) + Ideal.ofBits .f32 0x3727C5AC#32)

/-- The decoder's result at (b, n, d). -/
def outAt {B N : Nat} (x : (⟨3, ![B, N, 512]⟩ : Shape).Idx → EReal) (w : (⟨2, ![1024, 512]⟩ : Shape).Idx → EReal)
    (bf : (⟨1, ![1024]⟩ : Shape).Idx → EReal) (cty : (⟨2, ![N, 1024]⟩ : Shape).Idx → EReal)
    (g be : (⟨1, ![1024]⟩ : Shape).Idx → EReal) (b : Fin B) (n : Fin N) (d : Fin 1024) : EReal :=
  normAt (fun k => gatedAt x w bf cty b n k) d * g (ix1 d) + be (ix1 d)

/-- The decoder's result as an array. -/
def outArr {B N : Nat} (x : (⟨3, ![B, N, 512]⟩ : Shape).Idx → EReal) (w : (⟨2, ![1024, 512]⟩ : Shape).Idx → EReal)
    (bf : (⟨1, ![1024]⟩ : Shape).Idx → EReal) (cty : (⟨2, ![N, 1024]⟩ : Shape).Idx → EReal)
    (g be : (⟨1, ![1024]⟩ : Shape).Idx → EReal) : (⟨3, ![B, N, 1024]⟩ : Shape).Idx → EReal :=
  fun j => outAt x w bf cty g be (j 0) (j 1) (j 2)

/-- The gate at a site depends only on that site's row of `static`. -/
theorem cityAt_congr {N N' : Nat} (s : (⟨2, ![N, 256]⟩ : Shape).Idx → EReal) (s' : (⟨2, ![N', 256]⟩ : Shape).Idx → EReal)
    (wc : (⟨2, ![1024, 256]⟩ : Shape).Idx → EReal) (bc : (⟨1, ![1024]⟩ : Shape).Idx → EReal) (n : Fin N) (n' : Fin N')
    (hs : ∀ k : Fin 256, s (ix2 n k) = s' (ix2 n' k)) (d : Fin 1024) :
    cityAt s wc bc n d = cityAt s' wc bc n' d := by
  unfold cityAt
  rw [Finset.sum_congr rfl fun k _ => by rw [hs k]]

/-- The result at (b, n, ·) depends only on the input's feature row at (b, n) and on the gate's row at n. -/
theorem outAt_congr {B N B' N' : Nat} (x : (⟨3, ![B, N, 512]⟩ : Shape).Idx → EReal) (x' : (⟨3, ![B', N', 512]⟩ : Shape).Idx → EReal)
    (w : (⟨2, ![1024, 512]⟩ : Shape).Idx → EReal) (bf : (⟨1, ![1024]⟩ : Shape).Idx → EReal)
    (cty : (⟨2, ![N, 1024]⟩ : Shape).Idx → EReal) (cty' : (⟨2, ![N', 1024]⟩ : Shape).Idx → EReal)
    (g be : (⟨1, ![1024]⟩ : Shape).Idx → EReal) (b : Fin B) (n : Fin N) (b' : Fin B') (n' : Fin N')
    (hx : ∀ k : Fin 512, x (ix3 b n k) = x' (ix3 b' n' k)) (hc : ∀ d : Fin 1024, cty (ix2 n d) = cty' (ix2 n' d))
    (d : Fin 1024) : outAt x w bf cty g be b n d = outAt x' w bf cty' g be b' n' d := by
  have hz : (fun k => gatedAt x w bf cty b n k) = fun k => gatedAt x' w bf cty' b' n' k := by
    funext k
    unfold gatedAt featAt
    rw [hc k, Finset.sum_congr rfl fun f _ => by rw [hx f]]
  unfold outAt
  rw [hz]

end FeatDecoder

end
-- ==== Proof.LibDotTransposedRhs.lean ====
/-
  The product of an M×K array with the transpose of an N×K array — both operands contracted on their LAST axis, no batch
  axis —, read at an output index (r, c), is the sum over the one contracted coordinate k of the left operand at (r, k)
  times the right operand at (c, k). Stated once for those dimension numbers (`DotDims.transposedRhs`), for a product
  into a zero accumulator inside a kernel body and for the host's product, both over the extended reals. A program's own
  dimension-number record of this form is equal to that one by unfolding.
-/
import Idealize.ShloMosaic.PureOps.Ideal.Laws
import Idealize.ShloMosaic.Lib.ValueIdx

noncomputable section

open scoped BigOperators

namespace TransposedRhsDot

open Idealize.ShloMosaic Idealize.ShloMosaic.ValueIdx

variable (M K N : Nat)

/-- The left operand's index at output index `j` and contraction index `q`: the row of `j`, … -/
theorem lhs0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl
/-- … and the contracted coordinate. -/
theorem lhs1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q
/-- The right operand's index: the COLUMN of `j` (the right operand's rows are the output's columns), … -/
theorem rhs0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl
/-- … and the contracted coordinate. -/
theorem rhs1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The contraction's sum at the output index (r, c), re-indexed by the one contracted coordinate. -/
theorem sum_eq (x : (⟨2, ![M, K]⟩ : Shape).Idx → EReal) (w : (⟨2, ![N, K]⟩ : Shape).Idx → EReal) (r : Fin M) (c : Fin N) :
    ∑ q : (DotDims.transposedRhs M K N).contr.Idx,
        x ((DotDims.transposedRhs M K N).lhsIdx (ix2 r c) q) * w ((DotDims.transposedRhs M K N).rhsIdx (ix2 r c) q)
      = ∑ k : Fin K, x (ix2 r k) * w (ix2 c k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k)
      = ix2 r k := funext fun a => Fin.ext (by
    match a with
    | ⟨0, _⟩ => exact lhs0 M K N _ _
    | ⟨1, _⟩ => exact (lhs1 M K N _ _).trans hk)
  have er : (DotDims.transposedRhs M K N).rhsIdx (ix2 r c) ((contrEquiv1 (DotDims.transposedRhs M K N) K rfl rfl).symm k)
      = ix2 c k := funext fun a => Fin.ext (by
    match a with
    | ⟨0, _⟩ => exact rhs0 M K N _ _
    | ⟨1, _⟩ => exact (rhs1 M K N _ _).trans hk)
  rw [el, er]

/-- A kernel's product into the zero accumulator, at (r, c). -/
theorem matmul_zero_apply {φ₁ φ₂ : FTy} (x : FVec Ideal ⟨2, ![M, K]⟩ φ₁) (w : FVec Ideal ⟨2, ![N, K]⟩ φ₂) (r : Fin M) (c : Fin N) :
    FloatOps.matmul (DotDims.transposedRhs M K N) none x w (constant ⟨2, ![M, N]⟩ .f32 0x00000000#32) (ix2 r c)
      = ∑ k : Fin K, x (ix2 r k) * w (ix2 c k) := by
  rw [Ideal.matmul_constant_zero_apply]
  exact sum_eq M K N x w r c

/-- The host's product, at (r, c). -/
theorem dotGeneral_apply {φ₁ φ₂ : FTy} (sched : HostSchedule) (x : FVec Ideal ⟨2, ![M, K]⟩ φ₁) (w : FVec Ideal ⟨2, ![N, K]⟩ φ₂)
    (r : Fin M) (c : Fin N) :
    FloatOps.dotGeneral (DotDims.transposedRhs M K N) none sched x w (ix2 r c)
      = ∑ k : Fin K, x (ix2 r k) * w (ix2 c k) := by
  rw [Ideal.dotGeneral_apply]
  exact sum_eq M K N x w r c

end TransposedRhsDot

end
-- ==== Proof.CityValue.lean ====
import proofs.«134022_j47029891891861_1_alg».proof.Proof.Gen.KernelIdeal.Frame
import proofs.«134022_j47029891891861_1_alg».proof.Proof.Spec
import proofs.«134022_j47029891891861_1_alg».proof.Proof.LibDotTransposedRhs
import Idealize.ShloMosaic.Lib.Pipeline.Value
import Idealize.ShloMosaic.Lib.ValueLayout
import Idealize.ShloMosaic.PureOps.Ideal.Laws

noncomputable section

open scoped BigOperators

namespace Cert.KernelIdeal.CityValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The first launch's dimension numbers are those of a product with the transpose of the right operand:
    both operands contracted on their last axis, no batch axis. -/
theorem city_dims : dot_S256x256_S1024x256_S256x1024_1_1_0_0_n_n = DotDims.transposedRhs 256 256 1024 := rfl

/-- The first launch's stored value at row p, channel q of a block: the gate of the block's row p. -/
theorem city_pay (x0 : FVec Ideal S256x256 .bf16) (x1 : FVec Ideal S1024x256 .bf16) (x2 : FVec Ideal S1024 .f32)
    (p : Fin 256) (q : Fin 1024) :
    k0_pay1 (F := Ideal) x0 x1 x2 (ix2 p q) = FeatDecoder.cityAt x0 x1 x2 p q := by
  unfold k0_pay1 FeatDecoder.cityAt
  rw [shapeCast_self, shapeCast_self, city_dims]
  refine (addf_apply _ _ _).trans ?_
  refine congrArg₂ (· + ·) (TransposedRhsDot.matmul_zero_apply 256 256 1024 x0 x1 p q) ?_
  refine (broadcastTo_1b_ab_apply _ _ p q).trans ?_
  exact shapeCast_a_1a_apply x2 _ 0 q

/-! The first launch walks 8 grid points; at point i it reads rows 256·i … 256·i + 255 of the site array (all 256
    columns), the whole weight and the whole bias, and writes rows 256·i … 256·i + 255 of the output (all 1024 channels).
    The gate at a site needs exactly that site's row, so each block written is the block of ONE whole-array function,
    and the 8 blocks tile the 2048 rows. -/

theorem zeros2 : (![0, 0] : Fin 2 → Nat) = fun _ => 0 := funext fun a => by fin_cases a <;> rfl
theorem zeros1 : (![0] : Fin 1 → Nat) = fun _ => 0 := funext fun a => by fin_cases a <;> rfl

/-- The printed index maps over the 8 grid points: the site window moves with the output's row-block index, every
    other block index is 0, and the output's row-block index ranges over 0 … 7. -/
theorem index_facts : ∀ t : Fin cfg0.N,
    win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (1 : Fin 2) = 0
    ∧ win0_3.index t (0 : Fin 2) ≤ 7 :=
  (by decide +kernel : ∀ t : Fin grid0.N, _)

/-- Every row-block index is some point's. -/
theorem index_onto : ∀ (q0 : Fin 8), ∃ t : Fin cfg0.N, win0_3.index t = ![q0.val, 0] :=
  (by decide +kernel : ∀ (q0 : Fin 8), ∃ t : Fin grid0.N, win0_3.index t = ![q0.val, 0])

/-- ONE POINT, over plain vectors: if the site block is the whole site array's rows at the offset 256·i0 and the weight
    and bias blocks are the whole arrays, the value stored at the block index `y` is the gate of the whole arrays at the
    array index `I` that sits at that row offset plus `y`. -/
theorem point_eq (X0 : S2048x256.Idx → EReal) (X1 : S1024x256.Idx → EReal) (X2 : S1024.Idx → EReal)
    (x0 : FVec Ideal S256x256 .bf16) (x1 : FVec Ideal S1024x256 .bf16) (x2 : FVec Ideal S1024 .f32) (i0 : Nat)
    (h0 : ∀ (y : S256x256.Idx) (J : S2048x256.Idx), (J 0).val = i0 * 256 + (y 0).val → (J 1).val = (y 1).val → x0 y = X0 J)
    (h1 : ∀ (y : S1024x256.Idx), x1 y = X1 y) (h2 : ∀ (y : S1024.Idx), x2 y = X2 y)
    (y : S256x1024.Idx) (I : S2048x1024.Idx) (hI0 : (I 0).val = i0 * 256 + (y 0).val) (hI1 : (I 1).val = (y 1).val) :
    k0_pay1 (F := Ideal) x0 x1 x2 y = FeatDecoder.cityArr X0 X1 X2 I := by
  obtain ⟨p, q, rfl⟩ : ∃ (p : Fin 256) (q : Fin 1024), y = ix2 p q := ⟨y 0, y 1, eq_ix2 y⟩
  obtain ⟨n, d, rfl⟩ : ∃ (n : Fin 2048) (d : Fin 1024), I = ix2 n d := ⟨I 0, I 1, eq_ix2 I⟩
  have hq : q = d := Fin.ext hI1.symm
  subst hq
  obtain rfl : x1 = X1 := funext h1
  obtain rfl : x2 = X2 := funext h2
  rw [city_pay]
  show _ = FeatDecoder.cityAt X0 x1 x2 n q
  exact FeatDecoder.cityAt_congr x0 X0 x1 x2 p n (fun k => h0 (ix2 p k) (ix2 n k) hI0 rfl) q

/-- What point `t` writes back is block `t` of the gate of the arrays the launch found. -/
theorem flushed_eq (c : Dev nD) (t : Fin cfg0.N) :
    (dat0 (F := Ideal) V c).flushed 3 t = ((cfg0.win 3).blk t).view.read (Elt Ideal)
      (FeatDecoder.cityArr (V c main_v1) (V c main_v3) (V c main_arg5)) := by
  show (cfg0.win 3).cut (grid0.coords t) ((dat0 V c).after 3 t) = _
  rw [after0_3]
  unfold out0_3
  rw [View.canon_unit_zero zeros2]
  simp only [View.ld_unit_zero (S := S256x256) zeros2, View.ld_unit_zero (S := S1024x256) zeros2,
    View.ld_unit_zero (S := S1024) zeros1]
  obtain ⟨e0, e1, e2, e3, e4, e5, e6⟩ := index_facts t
  funext j
  show k0_pay1 (F := Ideal) (iblk0 V c 0 t) (iblk0 V c 1 t) (iblk0 V c 2 t) j
    = FeatDecoder.cityArr (V c main_v1) (V c main_v3) (V c main_arg5) (((cfg0.win 3).blk t).view.emb j)
  refine point_eq (V c main_v1) (V c main_v3) (V c main_arg5) (iblk0 V c 0 t) (iblk0 V c 1 t) (iblk0 V c 2 t)
    (win0_3.index t (0 : Fin 2)) ?_ ?_ ?_ j (((cfg0.win 3).blk t).view.emb j) ?_ ?_
  · -- the site block sits at the output's row offset
    intro y J hJ0 hJ1
    show V c main_v1 (((cfg0.win 0).blk t).view.emb y) = V c main_v1 J
    refine congrArg _ (funext fun a => Fin.ext ?_)
    match a with
    | ⟨0, _⟩ => show win0_0.index t (0 : Fin 2) * 256 + 1 * (y 0).val = (J 0).val; omega
    | ⟨1, _⟩ => show win0_0.index t (1 : Fin 2) * 256 + 1 * (y 1).val = (J 1).val; omega
  · -- the weight's one block is the whole array
    intro y
    show V c main_v3 (((cfg0.win 1).blk t).view.emb y) = V c main_v3 y
    refine congrArg _ (funext fun a => Fin.ext ?_)
    match a with
    | ⟨0, _⟩ => show win0_1.index t (0 : Fin 2) * 1024 + 1 * (y 0).val = (y 0).val; omega
    | ⟨1, _⟩ => show win0_1.index t (1 : Fin 2) * 256 + 1 * (y 1).val = (y 1).val; omega
  · -- and so is the bias's
    intro y
    show V c main_arg5 (((cfg0.win 2).blk t).view.emb y) = V c main_arg5 y
    refine congrArg _ (funext fun a => Fin.ext ?_)
    match a with
    | ⟨0, _⟩ => show win0_2.index t (0 : Fin 1) * 1024 + 1 * (y 0).val = (y 0).val; omega
  · show win0_3.index t (0 : Fin 2) * 256 + 1 * (j 0).val = win0_3.index t (0 : Fin 2) * 256 + (j 0).val; omega
  · show win0_3.index t (1 : Fin 2) * 1024 + 1 * (j 1).val = (j 1).val; omega

/-- An index of the output array is in point `t`'s block iff each coordinate is in the block's range on its axis. -/
theorem mem_blk (t : Fin cfg0.N) (i : S2048x1024.Idx) :
    i ∈ ((cfg0.win 3).blk t).view.set ↔ ∀ a : Fin 2, win0_3.index t a * S256x1024.size a ≤ (i a).val ∧ (i a).val < win0_3.index t a * S256x1024.size a + S256x1024.size a := by
  show i ∈ ((View.whole main_v4).slice (win0_3.rect t)).set ↔ _
  rw [View.set_slice_whole, Rect.mem_set_unit]
  exact Iff.rfl

/-- Every index of the output array is in some point's block: row r is in the block of the point with row-block index r / 256. -/
theorem cover (i : S2048x1024.Idx) :
    ∃ t : Fin cfg0.N, (cfg0.win 3).flush t = true ∧ i ∈ ((cfg0.win 3).blk t).view.set := by
  have hi0 : (i 0).val < 2048 := (i 0).isLt
  have hi1 : (i 1).val < 1024 := (i 1).isLt
  obtain ⟨t, ht⟩ := index_onto ⟨(i 0).val / 256, by omega⟩
  have q0 : win0_3.index t (0 : Fin 2) = (i 0).val / 256 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 1024 ≤ (i 1).val ∧ (i 1).val < win0_3.index t (1 : Fin 2) * 1024 + 1024; omega

/-- After the first launch its output array holds the gate of the arrays the launch found. -/
theorem city_final (c : Dev nD) :
    (dat0 (F := Ideal) V c).arrAt 3 cfg0.N = FeatDecoder.cityArr (V c main_v1) (V c main_v3) (V c main_arg5) :=
  (dat0 V c).arrAt_eq_of_cover 3 (FeatDecoder.cityArr (V c main_v1) (V c main_v3) (V c main_arg5))
    (fun t _ => flushed_eq V c t) cover

end Cert.KernelIdeal.CityValue

end
-- ==== Proof.FusedPayload.lean ====
import proofs.«134022_j47029891891861_1_alg».proof.Proof.Gen.KernelIdeal.Frame
import proofs.«134022_j47029891891861_1_alg».proof.Proof.Spec
import proofs.«134022_j47029891891861_1_alg».proof.Proof.LibDotTransposedRhs
import Idealize.ShloMosaic.Lib.Pipeline.Value
import Idealize.ShloMosaic.Lib.ValueLayout
import Idealize.ShloMosaic.PureOps.Ideal.Laws

noncomputable section

open scoped BigOperators

namespace Cert.KernelIdeal.FusedPayload

open Cert.KernelIdeal Cert.KernelIdeal.Gen Idealize.ShloMosaic Idealize.ShloMosaic.TcCoe Idealize.SL.Sem
open Idealize.ShloMosaic.ValueIdx
open Idealize.ShloMosaic.Pipeline (Dat)

variable {α : Type}

/-- The row of the [2048, ·] view that holds entry (a, p) of the [8, 256, ·] block: 256·a + p. -/
def row (a : Fin 8) (p : Fin 256) : Fin 2048 := ⟨256 * a.val + p.val, by omega⟩

/-- An [8, 256, n] block viewed [2048, n] reads, at (256·a + p, f), the block at (a, p, f): the two indices have the
    same row-major position. -/
theorem view2_apply {n : Nat} (v : (⟨3, ![8, 256, n]⟩ : Shape).Idx → α)
    (h : (⟨3, ![8, 256, n]⟩ : Shape).ShapeCasts ⟨2, ![2048, n]⟩) (a : Fin 8) (p : Fin 256) (f : Fin n) :
    shapeCast ⟨2, ![2048, n]⟩ v h (ix2 (row a p) f) = v (ix3 a p f) :=
  shapeCast_apply v h _ _ (by
    rw [Shape.rowMajor_val_three, Shape.rowMajor_val_two]
    show (a.val * 256 + p.val) * n + f.val = (256 * a.val + p.val) * n + f.val
    rw [Nat.mul_comm a.val 256])

/-- A [2048, n] matrix viewed [8, 256, n] reads, at (a, p, q), the matrix at (256·a + p, q). -/
theorem view3_apply {n : Nat} (v : (⟨2, ![2048, n]⟩ : Shape).Idx → α)
    (h : (⟨2, ![2048, n]⟩ : Shape).ShapeCasts ⟨3, ![8, 256, n]⟩) (a : Fin 8) (p : Fin 256) (q : Fin n) :
    shapeCast ⟨3, ![8, 256, n]⟩ v h (ix3 a p q) = v (ix2 (row a p) q) :=
  shapeCast_apply v h _ _ (by
    rw [Shape.rowMajor_val_three, Shape.rowMajor_val_two]
    show (256 * a.val + p.val) * n + q.val = (a.val * 256 + p.val) * n + q.val
    rw [Nat.mul_comm a.val 256])

/-- A row [n] viewed [1, n] and repeated over m rows reads, at (r, c), the row at c. -/
theorem rowBcast_apply {m n : Nat} (b : (⟨1, ![n]⟩ : Shape).Idx → α) (h1 : (⟨1, ![n]⟩ : Shape).ShapeCasts ⟨2, ![1, n]⟩)
    (h2 : (⟨2, ![1, n]⟩ : Shape).Broadcasts ⟨2, ![m, n]⟩) (r : Fin m) (c : Fin n) :
    broadcastTo ⟨2, ![m, n]⟩ (shapeCast ⟨2, ![1, n]⟩ b h1) h2 (ix2 r c) = b (ix1 c) :=
  (broadcastTo_1b_ab_apply _ h2 r c).trans (shapeCast_a_1a_apply b h1 0 c)

/-- A [1, m, n] array repeated over k leading entries reads, at (a, p, q), its one entry at (p, q). -/
theorem bcast_1bc_abc_apply {k m n : Nat} (hm : m ≠ 1) (hn : n ≠ 1) (v : (⟨3, ![1, m, n]⟩ : Shape).Idx → α)
    (h : (⟨3, ![1, m, n]⟩ : Shape).Broadcasts ⟨3, ![k, m, n]⟩) (a : Fin k) (p : Fin m) (q : Fin n) :
    broadcastTo ⟨3, ![k, m, n]⟩ v h (ix3 a p q) = v (ix3 (0 : Fin 1) p q) := by
  refine broadcastTo_apply v h (ix3 a p q) (ix3 (0 : Fin 1) p q) fun ax => ?_
  match ax with
  | ⟨0, _⟩ => rfl
  | ⟨1, _⟩ =>
    show p.val = if m = 1 then 0 else p.val
    rw [if_neg hm]
  | ⟨2, _⟩ =>
    show q.val = if n = 1 then 0 else q.val
    rw [if_neg hn]

/-- The gate block [256, 1024] viewed [1, 256, 1024] and repeated over the 8 batch entries reads, at (a, p, q), the
    gate at (p, q). -/
theorem gateBcast_apply (g : (⟨2, ![256, 1024]⟩ : Shape).Idx → α)
    (h1 : (⟨2, ![256, 1024]⟩ : Shape).ShapeCasts ⟨3, ![1, 256, 1024]⟩)
    (h2 : (⟨3, ![1, 256, 1024]⟩ : Shape).Broadcasts ⟨3, ![8, 256, 1024]⟩) (a : Fin 8) (p : Fin 256) (q : Fin 1024) :
    broadcastTo ⟨3, ![8, 256, 1024]⟩ (shapeCast ⟨3, ![1, 256, 1024]⟩ g h1) h2 (ix3 a p q) = g (ix2 p q) :=
  (bcast_1bc_abc_apply (by decide) (by decide) _ h2 a p q).trans (shapeCast_ab_1ab_apply g h1 0 p q)

/-- A vector [n] viewed [1, 1, n] reads, at (u, w, i), the vector at i. -/
theorem shapeCast_a_11a_apply {n : Nat} (x : (⟨1, ![n]⟩ : Shape).Idx → α)
    (h : (⟨1, ![n]⟩ : Shape).ShapeCasts ⟨3, ![1, 1, n]⟩) (u w : Fin 1) (i : Fin n) :
    shapeCast ⟨3, ![1, 1, n]⟩ x h (ix3 u w i) = x (ix1 i) :=
  shapeCast_apply x h _ _ (by
    have hu : u.val = 0 := by omega
    have hw : w.val = 0 := by omega
    rw [Shape.rowMajor_val_three, Shape.rowMajor_val_one]
    show i.val = (u.val * 1 + w.val) * n + i.val
    simp only [hu, hw, Nat.zero_mul, Nat.zero_add])

/-- A [1, 1, n] array repeated over k × m leading entries reads, at (a, p, q), its one lane row at q. -/
theorem bcast_11c_abc_apply {k m n : Nat} (hn : n ≠ 1) (v : (⟨3, ![1, 1, n]⟩ : Shape).Idx → α)
    (h : (⟨3, ![1, 1, n]⟩ : Shape).Broadcasts ⟨3, ![k, m, n]⟩) (a : Fin k) (p : Fin m) (q : Fin n) :
    broadcastTo ⟨3, ![k, m, n]⟩ v h (ix3 a p q) = v (ix3 (0 : Fin 1) (0 : Fin 1) q) := by
  refine broadcastTo_apply v h (ix3 a p q) (ix3 (0 : Fin 1) (0 : Fin 1) q) fun ax => ?_
  match ax with
  | ⟨0, _⟩ => rfl
  | ⟨1, _⟩ => rfl
  | ⟨2, _⟩ =>
    show q.val = if n = 1 then 0 else q.val
    rw [if_neg hn]

/-- A per-channel vector [1024] viewed [1, 1, 1024] and repeated over the block reads, at (a, p, q), the vector at q. -/
theorem chanBcast_apply (g : (⟨1, ![1024]⟩ : Shape).Idx → α)
    (h1 : (⟨1, ![1024]⟩ : Shape).ShapeCasts ⟨3, ![1, 1, 1024]⟩)
    (h2 : (⟨3, ![1, 1, 1024]⟩ : Shape).Broadcasts ⟨3, ![8, 256, 1024]⟩) (a : Fin 8) (p : Fin 256) (q : Fin 1024) :
    broadcastTo ⟨3, ![8, 256, 1024]⟩ (shapeCast ⟨3, ![1, 1, 1024]⟩ g h1) h2 (ix3 a p q) = g (ix1 q) :=
  (bcast_11c_abc_apply (by decide) _ h2 a p q).trans (shapeCast_a_11a_apply g h1 0 0 q)

/-- A matrix [k, m] viewed as a column stack [k, m, 1] reads, at (a, p, u), the matrix at (a, p). -/
theorem shapeCast_ab_ab1_apply {k m : Nat} (x : (⟨2, ![k, m]⟩ : Shape).Idx → α)
    (h : (⟨2, ![k, m]⟩ : Shape).ShapeCasts ⟨3, ![k, m, 1]⟩) (a : Fin k) (p : Fin m) (u : Fin 1) :
    shapeCast ⟨3, ![k, m, 1]⟩ x h (ix3 a p u) = x (ix2 a p) :=
  shapeCast_apply x h _ _ (by
    have hu : u.val = 0 := by omega
    rw [Shape.rowMajor_val_three, Shape.rowMajor_val_two]
    show a.val * m + p.val = (a.val * m + p.val) * 1 + u.val
    rw [hu, Nat.mul_one, Nat.add_zero])

/-- A column stack [k, m, 1] repeated along n lanes reads, at (a, p, q), its entry at (a, p, 0). -/
theorem bcast_ab1_abc_apply {k m n : Nat} (hk : k ≠ 1) (hm : m ≠ 1) (v : (⟨3, ![k, m, 1]⟩ : Shape).Idx → α)
    (h : (⟨3, ![k, m, 1]⟩ : Shape).Broadcasts ⟨3, ![k, m, n]⟩) (a : Fin k) (p : Fin m) (q : Fin n) :
    broadcastTo ⟨3, ![k, m, n]⟩ v h (ix3 a p q) = v (ix3 a p (0 : Fin 1)) := by
  refine broadcastTo_apply v h (ix3 a p q) (ix3 a p (0 : Fin 1)) fun ax => ?_
  match ax with
  | ⟨0, _⟩ =>
    show a.val = if k = 1 then 0 else a.val
    rw [if_neg hk]
  | ⟨1, _⟩ =>
    show p.val = if m = 1 then 0 else p.val
    rw [if_neg hm]
  | ⟨2, _⟩ => rfl

/-- The sum along the lanes of an [8, 256, 1024] block, read at (a, p): the sum over k of the block at (a, p, k). -/
theorem laneSum_apply (v : FVec Ideal ⟨3, ![8, 256, 1024]⟩ .f32)
    (h : (⟨3, ![8, 256, 1024]⟩ : Shape).Reduces [2] ⟨2, ![8, 256]⟩) (hφ : FKind.Formats .f32)
    (hacc : (0x00000000#32 : BitVec FTy.f32.bits) = 0x00000000#32) (a : Fin 8) (p : Fin 256) :
    multiReduction (F := Ideal) .add [2] ⟨2, ![8, 256]⟩ v 0x00000000#32 h hφ hacc (ix2 a p)
      = ∑ k : Fin 1024, v (ix3 a p k) := by
  refine (Ideal.multiReduction_add_single v 0x00000000#32 h hφ hacc (ix2 a p)).trans ?_
  refine Finset.sum_congr rfl fun k _ => congrArg v ?_
  funext c
  refine Fin.ext ?_
  match c with
  | ⟨0, _⟩ => rfl
  | ⟨1, _⟩ => rfl
  | ⟨2, _⟩ => rfl

/-- The program's dimension numbers for its [2048, 512] × [1024, 512] product are those of a product with a
    transposed right operand. -/
theorem dot_eq : dot_S2048x512_S1024x512_S2048x1024_1_1_0_0_n_n = DotDims.transposedRhs 2048 512 1024 := rfl

/-- The product into the zero accumulator, read at (r, c): the feature row r against the weight row c. -/
theorem prod_apply (x : FVec Ideal ⟨2, ![2048, 512]⟩ .bf16) (w : FVec Ideal ⟨2, ![1024, 512]⟩ .bf16) (r : Fin 2048) (c : Fin 1024) :
    matmul dot_S2048x512_S1024x512_S2048x1024_1_1_0_0_n_n none x w (constant (F := Ideal) S2048x1024 .f32 0x00000000#32) (ix2 r c)
      = ∑ k : Fin 512, x (ix2 r k) * w (ix2 c k) := by
  rw [dot_eq]
  exact TransposedRhsDot.matmul_zero_apply 2048 512 1024 x w r c

/-- A column stack [8, 256, 1] repeated along the 1024 lanes reads, at (a, p, q), its entry at (a, p, 0). -/
theorem keepBcast_apply (v : (⟨3, ![8, 256, 1]⟩ : Shape).Idx → α)
    (h : (⟨3, ![8, 256, 1]⟩ : Shape).Broadcasts ⟨3, ![8, 256, 1024]⟩) (a : Fin 8) (p : Fin 256) (q : Fin 1024) :
    broadcastTo ⟨3, ![8, 256, 1024]⟩ v h (ix3 a p q) = v (ix3 a p (0 : Fin 1)) :=
  bcast_ab1_abc_apply (by decide) (by decide) v h a p q

/-- The reciprocal square root of a vector, read at an index, is the extended reals' one of the element. -/
theorem rsqrt_apply {s : Shape} {φ : FTy} (v : FVec Ideal s φ) (i : s.Idx) : rsqrt v i = Ideal.rsqrt (v i) := rfl

/-- The second launch's stored value at (a, p, q) of a block is the decoder's result of the block's own arrays there. -/
theorem fused_pay (x0 : FVec Ideal S8x256x512 .bf16) (x1 : FVec Ideal S1024x512 .bf16) (x2 : FVec Ideal S1024 .f32)
    (x3 : FVec Ideal S256x1024 .f32) (x4 x5 : FVec Ideal S1024 .f32) (a : Fin 8) (p : Fin 256) (q : Fin 1024) :
    k1_pay1 (F := Ideal) (k1_pay2 x0 x1 x2 x3) (k1_pay3 x4) x5 (ix3 a p q) = FeatDecoder.outAt x0 x1 x2 x3 x4 x5 a p q := by
  unfold k1_pay1 k1_pay2 k1_pay3
  -- Every operation is read at its index, outermost first: the affine tail at (a, p, q); the normalized value as the
  -- centred activation times the reciprocal root, the mean and the variance being lane sums over k of the activation
  -- at (a, p, k); the activation as the leaky rectifier of row 256·a + p of the product plus the bias, times the gate
  -- at (p, k); and row 256·a + p of the [2048, 512] view of the input is the block's feature row at (a, p). The
  -- specification unfolds to the same expression.
  simp -index only [addf_apply, mulf_apply, subf_apply, divf_apply, select_apply, cmpf_apply, broadcast_apply, rsqrt_apply,
    chanBcast_apply, keepBcast_apply, shapeCast_ab_ab1_apply, laneSum_apply, gateBcast_apply, view3_apply,
    rowBcast_apply, prod_apply, view2_apply, shapeCast_self, Ideal.cmpf_def, Ideal.ofBits_def,
    FeatDecoder.outAt, FeatDecoder.normAt, FeatDecoder.meanOf, FeatDecoder.gatedAt, FeatDecoder.featAt, FeatDecoder.leaky]

end Cert.KernelIdeal.FusedPayload

end
-- ==== Proof.FusedValue.lean ====
import proofs.«134022_j47029891891861_1_alg».proof.Proof.Gen.KernelIdeal.Frame
import proofs.«134022_j47029891891861_1_alg».proof.Proof.Spec
import proofs.«134022_j47029891891861_1_alg».proof.Proof.FusedPayload
import Idealize.ShloMosaic.Lib.Pipeline.Value

noncomputable section

open scoped BigOperators

namespace Cert.KernelIdeal.FusedValue

open Cert.KernelIdeal Cert.KernelIdeal.Gen Idealize.ShloMosaic Idealize.ShloMosaic.TcCoe Idealize.SL.Sem
open Idealize.ShloMosaic.ValueIdx
open Idealize.ShloMosaic.Pipeline (Dat)

/-! The second launch walks a 4 × 8 grid; at the point with block indices (i0, i1) it reads the input's rows
    8·i0 … 8·i0 + 7 at the sites 256·i1 … 256·i1 + 255 (all 512 features), the gate's rows at the same sites (all 1024
    channels), the whole weight and the three whole channel vectors, and writes the output's block at the same rows and
    sites (all 1024 channels). The decoder's result at (b, n, ·) needs exactly the input's feature row at (b, n) and the
    gate's row at n, so each block written is the block of ONE whole-array function, and the blocks tile the array. -/

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The printed index maps over the 32 grid points: the input and the gate move with the output's block indices, every
    other window stays at block 0, and the output's block indices range over 4 × 8. -/
theorem index_facts : ∀ t : Fin cfg1.N,
    win1_0.index t (0 : Fin 3) = win1_6.index t (0 : Fin 3)
    ∧ win1_0.index t (1 : Fin 3) = win1_6.index t (1 : Fin 3)
    ∧ win1_0.index t (2 : Fin 3) = 0
    ∧ win1_3.index t (0 : Fin 2) = win1_6.index t (1 : Fin 3)
    ∧ win1_3.index t (1 : Fin 2) = 0
    ∧ win1_1.index t (0 : Fin 2) = 0 ∧ win1_1.index t (1 : Fin 2) = 0
    ∧ win1_2.index t (0 : Fin 1) = 0 ∧ win1_4.index t (0 : Fin 1) = 0 ∧ win1_5.index t (0 : Fin 1) = 0
    ∧ win1_6.index t (2 : Fin 3) = 0
    ∧ win1_6.index t (0 : Fin 3) ≤ 3 ∧ win1_6.index t (1 : Fin 3) ≤ 7 :=
  (by decide +kernel : ∀ t : Fin grid1.N, _)

/-- Every pair of block indices is some point's. -/
theorem index_onto : ∀ (q0 : Fin 4) (q1 : Fin 8), ∃ t : Fin cfg1.N, win1_6.index t = ![q0.val, q1.val, 0] :=
  (by decide +kernel : ∀ (q0 : Fin 4) (q1 : Fin 8), ∃ t : Fin grid1.N, win1_6.index t = ![q0.val, q1.val, 0])

/-- ONE POINT, over plain vectors: if the input block and the gate block are the whole arrays' rows at the offsets
    (8·i0, 256·i1) and 256·i1, the value stored at the block index `y` is the decoder's result of the whole arrays at
    the array index `I` that sits at those offsets plus `y`. -/
theorem point_eq (X0 : S32x2048x512.Idx → EReal) (X1 : S1024x512.Idx → EReal) (X2 : S1024.Idx → EReal)
    (X3 : S2048x1024.Idx → EReal) (X4 X5 : S1024.Idx → EReal)
    (x0 : FVec Ideal S8x256x512 .bf16) (x1 : FVec Ideal S1024x512 .bf16) (x2 : FVec Ideal S1024 .f32)
    (x3 : FVec Ideal S256x1024 .f32) (x4 x5 : FVec Ideal S1024 .f32) (i0 i1 : Nat)
    (h1 : x1 = X1) (h2 : x2 = X2) (h4 : x4 = X4) (h5 : x5 = X5)
    (h0 : ∀ (y : S8x256x512.Idx) (J : S32x2048x512.Idx), (J 0).val = i0 * 8 + (y 0).val → (J 1).val = i1 * 256 + (y 1).val →
      (J 2).val = (y 2).val → x0 y = X0 J)
    (h3 : ∀ (y : S256x1024.Idx) (J : S2048x1024.Idx), (J 0).val = i1 * 256 + (y 0).val → (J 1).val = (y 1).val → x3 y = X3 J)
    (y : S8x256x1024.Idx) (I : S32x2048x1024.Idx) (hI0 : (I 0).val = i0 * 8 + (y 0).val)
    (hI1 : (I 1).val = i1 * 256 + (y 1).val) (hI2 : (I 2).val = (y 2).val) :
    k1_pay1 (F := Ideal) (k1_pay2 x0 x1 x2 x3) (k1_pay3 x4) x5 y = FeatDecoder.outArr X0 X1 X2 X3 X4 X5 I := by
  subst h1 h2 h4 h5
  obtain ⟨a, p, q, rfl⟩ : ∃ (a : Fin 8) (p : Fin 256) (q : Fin 1024), y = ix3 a p q := ⟨y 0, y 1, y 2, eq_ix3 y⟩
  obtain ⟨b, n, d, rfl⟩ : ∃ (b : Fin 32) (n : Fin 2048) (d : Fin 1024), I = ix3 b n d := ⟨I 0, I 1, I 2, eq_ix3 I⟩
  have hq : q = d := Fin.ext hI2.symm
  subst hq
  rw [FusedPayload.fused_pay]
  show _ = FeatDecoder.outAt X0 x1 x2 X3 x4 x5 b n q
  exact FeatDecoder.outAt_congr x0 X0 x1 x2 x3 X3 x4 x5 a p b n
    (fun k => h0 (ix3 a p k) (ix3 b n k) hI0 hI1 rfl) (fun k => h3 (ix2 p k) (ix2 n k) hI1 rfl) q

variable (V : (c : Dev nD) → (b : Ref sig .tc) → Buf (Elt Ideal) ((c : Thread nD τ).loc b))

/-- What point `t` writes back is block `t` of the decoder's result of the arrays the launch found. -/
theorem flushed_eq (c : Dev nD) (t : Fin cfg1.N) :
    (dat1 (F := Ideal) V c).flushed 6 t = ((cfg1.win 6).blk t).view.read (Elt Ideal)
      (FeatDecoder.outArr (V c main_v0) (V c main_v2) (V c main_arg3) (V c main_v4) (V c main_arg6) (V c main_arg7)) := by
  show (cfg1.win 6).cut (grid1.coords t) ((dat1 V c).after 6 t) = _
  rw [after1_6]
  unfold out1_6
  rw [View.canon_unit_zero zeros3]
  simp only [View.ld_unit_zero (S := S8x256x512) zeros3, View.ld_unit_zero (S := S1024x512) zeros2,
    View.ld_unit_zero (S := S1024) zeros1, View.ld_unit_zero (S := S256x1024) zeros2]
  obtain ⟨e0, e1, e2, e3, e4, e5, e6, e7, e8, e9, e10, e11, e12⟩ := index_facts t
  funext j
  show k1_pay1 (F := Ideal) (k1_pay2 (iblk1 V c 0 t) (iblk1 V c 1 t) (iblk1 V c 2 t) (iblk1 V c 3 t)) (k1_pay3 (iblk1 V c 4 t))
      (iblk1 V c 5 t) j
    = FeatDecoder.outArr (V c main_v0) (V c main_v2) (V c main_arg3) (V c main_v4) (V c main_arg6) (V c main_arg7)
        (((cfg1.win 6).blk t).view.emb j)
  refine point_eq (V c main_v0) (V c main_v2) (V c main_arg3) (V c main_v4) (V c main_arg6) (V c main_arg7)
    (iblk1 V c 0 t) (iblk1 V c 1 t) (iblk1 V c 2 t) (iblk1 V c 3 t) (iblk1 V c 4 t) (iblk1 V c 5 t)
    (win1_6.index t (0 : Fin 3)) (win1_6.index t (1 : Fin 3)) ?_ ?_ ?_ ?_ ?_ ?_ j (((cfg1.win 6).blk t).view.emb j) ?_ ?_ ?_
  · -- the weight's one block is the whole array
    funext y
    show V c main_v2 (((cfg1.win 1).blk t).view.emb y) = V c main_v2 y
    refine congrArg _ (funext fun a => Fin.ext ?_)
    match a with
    | ⟨0, _⟩ => show win1_1.index t (0 : Fin 2) * 1024 + 1 * (y 0).val = (y 0).val; omega
    | ⟨1, _⟩ => show win1_1.index t (1 : Fin 2) * 512 + 1 * (y 1).val = (y 1).val; omega
  · funext y
    show V c main_arg3 (((cfg1.win 2).blk t).view.emb y) = V c main_arg3 y
    refine congrArg _ (funext fun a => Fin.ext ?_)
    match a with
    | ⟨0, _⟩ => show win1_2.index t (0 : Fin 1) * 1024 + 1 * (y 0).val = (y 0).val; omega
  · funext y
    show V c main_arg6 (((cfg1.win 4).blk t).view.emb y) = V c main_arg6 y
    refine congrArg _ (funext fun a => Fin.ext ?_)
    match a with
    | ⟨0, _⟩ => show win1_4.index t (0 : Fin 1) * 1024 + 1 * (y 0).val = (y 0).val; omega
  · funext y
    show V c main_arg7 (((cfg1.win 5).blk t).view.emb y) = V c main_arg7 y
    refine congrArg _ (funext fun a => Fin.ext ?_)
    match a with
    | ⟨0, _⟩ => show win1_5.index t (0 : Fin 1) * 1024 + 1 * (y 0).val = (y 0).val; omega
  · -- the input's block sits at the output's row and site offsets
    intro y J hJ0 hJ1 hJ2
    show V c main_v0 (((cfg1.win 0).blk t).view.emb y) = V c main_v0 J
    refine congrArg _ (funext fun a => Fin.ext ?_)
    match a with
    | ⟨0, _⟩ => show win1_0.index t (0 : Fin 3) * 8 + 1 * (y 0).val = (J 0).val; omega
    | ⟨1, _⟩ => show win1_0.index t (1 : Fin 3) * 256 + 1 * (y 1).val = (J 1).val; omega
    | ⟨2, _⟩ => show win1_0.index t (2 : Fin 3) * 512 + 1 * (y 2).val = (J 2).val; omega
  · -- the gate's block sits at the output's site offset
    intro y J hJ0 hJ1
    show V c main_v4 (((cfg1.win 3).blk t).view.emb y) = V c main_v4 J
    refine congrArg _ (funext fun a => Fin.ext ?_)
    match a with
    | ⟨0, _⟩ => show win1_3.index t (0 : Fin 2) * 256 + 1 * (y 0).val = (J 0).val; omega
    | ⟨1, _⟩ => show win1_3.index t (1 : Fin 2) * 1024 + 1 * (y 1).val = (J 1).val; omega
  · show win1_6.index t (0 : Fin 3) * 8 + 1 * (j 0).val = win1_6.index t (0 : Fin 3) * 8 + (j 0).val; omega
  · show win1_6.index t (1 : Fin 3) * 256 + 1 * (j 1).val = win1_6.index t (1 : Fin 3) * 256 + (j 1).val; omega
  · show win1_6.index t (2 : Fin 3) * 1024 + 1 * (j 2).val = (j 2).val; omega

/-- An index of the output array is in point `t`'s block iff each coordinate is in the block's range on its axis. -/
theorem mem_block (t : Fin cfg1.N) (i : S32x2048x1024.Idx) :
    i ∈ ((cfg1.win 6).blk t).view.set ↔ ∀ a : Fin 3, win1_6.index t a * S8x256x1024.size a ≤ (i a).val
      ∧ (i a).val < win1_6.index t a * S8x256x1024.size a + S8x256x1024.size a := by
  show i ∈ ((View.whole main_v5).slice (win1_6.rect t)).set ↔ _
  rw [View.set_slice_whole, Rect.mem_set_unit]
  exact Iff.rfl

/-- The blocks tile the output: the index (b, n, d) is in the block of the point with block indices (b / 8, n / 256). -/
theorem covered (i : S32x2048x1024.Idx) :
    ∃ t : Fin cfg1.N, (cfg1.win 6).flush t = true ∧ i ∈ ((cfg1.win 6).blk t).view.set := by
  have hi0 : (i 0).val < 32 := (i 0).isLt
  have hi1 : (i 1).val < 2048 := (i 1).isLt
  have hi2 : (i 2).val < 1024 := (i 2).isLt
  obtain ⟨t, ht⟩ := index_onto ⟨(i 0).val / 8, by omega⟩ ⟨(i 1).val / 256, by omega⟩
  have q0 : win1_6.index t (0 : Fin 3) = (i 0).val / 8 := congrFun ht 0
  have q1 : win1_6.index t (1 : Fin 3) = (i 1).val / 256 := congrFun ht 1
  have q2 : win1_6.index t (2 : Fin 3) = 0 := congrFun ht 2
  refine ⟨t, flush1_6 t, ?_⟩
  rw [mem_block]
  intro a
  match a with
  | ⟨0, _⟩ => show win1_6.index t (0 : Fin 3) * 8 ≤ (i 0).val ∧ (i 0).val < win1_6.index t (0 : Fin 3) * 8 + 8; omega
  | ⟨1, _⟩ => show win1_6.index t (1 : Fin 3) * 256 ≤ (i 1).val ∧ (i 1).val < win1_6.index t (1 : Fin 3) * 256 + 256; omega
  | ⟨2, _⟩ => show win1_6.index t (2 : Fin 3) * 1024 ≤ (i 2).val ∧ (i 2).val < win1_6.index t (2 : Fin 3) * 1024 + 1024; omega

/-- After the second launch its output array holds the decoder's result of the arrays the launch found. -/
theorem fused_final (c : Dev nD) :
    (dat1 (F := Ideal) V c).arrAt 6 cfg1.N
      = FeatDecoder.outArr (V c main_v0) (V c main_v2) (V c main_arg3) (V c main_v4) (V c main_arg6) (V c main_arg7) :=
  (dat1 (F := Ideal) V c).arrAt_eq_of_cover 6 _ (fun t _ => flushed_eq V c t) covered

end Cert.KernelIdeal.FusedValue

end
-- ==== Proof.KernelValue.lean ====
import proofs.«134022_j47029891891861_1_alg».proof.Proof.Gen.KernelIdeal.Frame
import proofs.«134022_j47029891891861_1_alg».proof.Proof.Spec
import proofs.«134022_j47029891891861_1_alg».proof.Proof.CityValue
import proofs.«134022_j47029891891861_1_alg».proof.Proof.FusedValue
import Idealize.ShloMosaic.Lib.StableHlo.Run

noncomputable section

open scoped BigOperators

namespace Cert.KernelIdeal.KernelValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! The program first narrows four of its arguments to bf16 on the host — at the extended reals a change of float format
    is the identity —, then the first launch writes the gate, then the second launch reads the gate back and writes the
    result. No launch writes an array the other one reads except the gate. -/

/-- Before the first launch the narrowed copy of the input is the input. -/
theorem entry_v0 (c : Dev nD) : W1 m ρ c (Proc.devRef .tc main_v0) = m ((c : Thread nD τ).loc main_arg0) := by
  show StableHlo.after hostOps0 (W0 m ρ c) (Proc.devRef .tc main_v0) = _
  after_results
  rfl
/-- … of `static` is `static`. -/
theorem entry_v1 (c : Dev nD) : W1 m ρ c (Proc.devRef .tc main_v1) = m ((c : Thread nD τ).loc main_arg1) := by
  show StableHlo.after hostOps0 (W0 m ρ c) (Proc.devRef .tc main_v1) = _
  after_results
  rfl
/-- … of `W_feat` is `W_feat`. -/
theorem entry_v2 (c : Dev nD) : W1 m ρ c (Proc.devRef .tc main_v2) = m ((c : Thread nD τ).loc main_arg2) := by
  show StableHlo.after hostOps0 (W0 m ρ c) (Proc.devRef .tc main_v2) = _
  after_results
  rfl
/-- … of `W_city` is `W_city`. -/
theorem entry_v3 (c : Dev nD) : W1 m ρ c (Proc.devRef .tc main_v3) = m ((c : Thread nD τ).loc main_arg4) := by
  show StableHlo.after hostOps0 (W0 m ρ c) (Proc.devRef .tc main_v3) = _
  after_results
  rfl
/-- The host stretch writes no argument. -/
theorem entry_arg3 (c : Dev nD) : W1 m ρ c (Proc.devRef .tc main_arg3) = m ((c : Thread nD τ).loc main_arg3) := by
  show StableHlo.after hostOps0 (W0 m ρ c) (Proc.devRef .tc main_arg3) = _
  after_results
theorem entry_arg5 (c : Dev nD) : W1 m ρ c (Proc.devRef .tc main_arg5) = m ((c : Thread nD τ).loc main_arg5) := by
  show StableHlo.after hostOps0 (W0 m ρ c) (Proc.devRef .tc main_arg5) = _
  after_results
theorem entry_arg6 (c : Dev nD) : W1 m ρ c (Proc.devRef .tc main_arg6) = m ((c : Thread nD τ).loc main_arg6) := by
  show StableHlo.after hostOps0 (W0 m ρ c) (Proc.devRef .tc main_arg6) = _
  after_results
theorem entry_arg7 (c : Dev nD) : W1 m ρ c (Proc.devRef .tc main_arg7) = m ((c : Thread nD τ).loc main_arg7) := by
  show StableHlo.after hostOps0 (W0 m ρ c) (Proc.devRef .tc main_arg7) = _
  after_results

/-- Between the launches the gate's array holds the gate of `static`, `W_city` and `b_city`. -/
theorem gate_eq (c : Dev nD) :
    V2 m ρ c main_v4 = FeatDecoder.cityArr (m ((c : Thread nD τ).loc main_arg1)) (m ((c : Thread nD τ).loc main_arg4))
      (m ((c : Thread nD τ).loc main_arg5)) := by
  have h := (W2_arr m ρ c 3).trans (CityValue.city_final (V1 m ρ) c)
  rw [show V1 m ρ c main_v1 = m ((c : Thread nD τ).loc main_arg1) from entry_v1 m ρ c,
    show V1 m ρ c main_v3 = m ((c : Thread nD τ).loc main_arg4) from entry_v3 m ρ c,
    show V1 m ρ c main_arg5 = m ((c : Thread nD τ).loc main_arg5) from entry_arg5 m ρ c] at h
  exact h

/-- After the run the result array holds the decoder's function of the eight arguments. -/
theorem result_eq (c : Dev nD) :
    W3 m ρ c (Proc.devRef .tc main_v5)
      = FeatDecoder.outArr (m ((c : Thread nD τ).loc main_arg0)) (m ((c : Thread nD τ).loc main_arg2))
          (m ((c : Thread nD τ).loc main_arg3))
          (FeatDecoder.cityArr (m ((c : Thread nD τ).loc main_arg1)) (m ((c : Thread nD τ).loc main_arg4))
            (m ((c : Thread nD τ).loc main_arg5)))
          (m ((c : Thread nD τ).loc main_arg6)) (m ((c : Thread nD τ).loc main_arg7)) := by
  have h := (W3_arr m ρ c 6).trans (FusedValue.fused_final (V2 m ρ) c)
  rw [gate_eq m ρ c,
    show V2 m ρ c main_v0 = m ((c : Thread nD τ).loc main_arg0) from (W2_of_ne m ρ c main_v0 (by decide)).trans (entry_v0 m ρ c),
    show V2 m ρ c main_v2 = m ((c : Thread nD τ).loc main_arg2) from (W2_of_ne m ρ c main_v2 (by decide)).trans (entry_v2 m ρ c),
    show V2 m ρ c main_arg3 = m ((c : Thread nD τ).loc main_arg3) from (W2_of_ne m ρ c main_arg3 (by decide)).trans (entry_arg3 m ρ c),
    show V2 m ρ c main_arg6 = m ((c : Thread nD τ).loc main_arg6) from (W2_of_ne m ρ c main_arg6 (by decide)).trans (entry_arg6 m ρ c),
    show V2 m ρ c main_arg7 = m ((c : Thread nD τ).loc main_arg7) from (W2_of_ne m ρ c main_arg7 (by decide)).trans (entry_arg7 m ρ c)] at h
  exact h

end Cert.KernelIdeal.KernelValue

end
-- ==== Proof.RefIsSpec.lean ====
import proofs.«134022_j47029891891861_1_alg».proof.Proof.Gen.ReferenceIdeal.Read
import proofs.«134022_j47029891891861_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx

/-! ### The composed index maps at coordinates

  Each layout operation of the reference reads its operand at an index computed from the result's index. At the
  coordinates (b, n, d) these compositions are the plain coordinate tuples. -/

/-- The site gate's contraction reads row n of the left operand. -/
theorem lidx_v9_ix (n : Fin 2048) (d : Fin 1024) (k : Fin 256) : lidx_main_v9 (ix2 n d) k = ix2 n k :=
  funext fun a => Fin.ext (by match a with | ⟨0, _⟩ => rfl | ⟨1, _⟩ => rfl)

/-- The site gate's contraction reads row d of the right operand. -/
theorem ridx_v9_ix (n : Fin 2048) (d : Fin 1024) (k : Fin 256) : ridx_main_v9 (ix2 n d) k = ix2 d k :=
  funext fun a => Fin.ext (by match a with | ⟨0, _⟩ => rfl | ⟨1, _⟩ => rfl)

/-- The gate's bias, broadcast twice, is read at channel d. -/
theorem idx_v10_v11_ix (n : Fin 2048) (d : Fin 1024) : idx_main_v10 (idx_main_v11 (ix2 n d)) = ix1 d :=
  funext fun a => Fin.ext (by match a with | ⟨0, _⟩ => rfl)

/-- The dense layer's contraction reads the feature row (b, n) of the input. -/
theorem lidx_v0_ix (b : Fin 32) (n : Fin 2048) (d : Fin 1024) (k : Fin 512) : lidx_main_v0 (ix3 b n d) k = ix3 b n k :=
  funext fun a => Fin.ext (by match a with | ⟨0, _⟩ => rfl | ⟨1, _⟩ => rfl | ⟨2, _⟩ => rfl)

/-- The dense layer's contraction reads row d of the weights. -/
theorem ridx_v0_ix (b : Fin 32) (n : Fin 2048) (d : Fin 1024) (k : Fin 512) : ridx_main_v0 (ix3 b n d) k = ix2 d k :=
  funext fun a => Fin.ext (by match a with | ⟨0, _⟩ => rfl | ⟨1, _⟩ => rfl)

/-- The dense layer's bias, broadcast twice, is read at channel d. -/
theorem idx_v1_v2_ix (b : Fin 32) (n : Fin 2048) (d : Fin 1024) : idx_main_v1 (idx_main_v2 (ix3 b n d)) = ix1 d :=
  funext fun a => Fin.ext (by match a with | ⟨0, _⟩ => rfl)

/-- The gate, broadcast over the batch, is read at (n, d). -/
theorem idx_v13_v14_ix (b : Fin 32) (n : Fin 2048) (d : Fin 1024) : idx_main_v13 (idx_main_v14 (ix3 b n d)) = ix2 n d :=
  funext fun a => Fin.ext (by match a with | ⟨0, _⟩ => rfl | ⟨1, _⟩ => rfl)

/-- The first sum over channels, read at (b, n), runs over the row (b, n, ·). -/
theorem idx_v16_v17_ix (b : Fin 32) (n : Fin 2048) (e : Fin 1) (k : Fin 1024) :
    idx_main_v16 (idx_main_v17 (ix3 b n e)) k = ix3 b n k :=
  funext fun a => Fin.ext (by match a with | ⟨0, _⟩ => rfl | ⟨1, _⟩ => rfl | ⟨2, _⟩ => rfl)

/-- The second sum over channels, read at (b, n), runs over the row (b, n, ·). -/
theorem idx_v23_v24_ix (b : Fin 32) (n : Fin 2048) (e : Fin 1) (k : Fin 1024) :
    idx_main_v23 (idx_main_v24 (ix3 b n e)) k = ix3 b n k :=
  funext fun a => Fin.ext (by match a with | ⟨0, _⟩ => rfl | ⟨1, _⟩ => rfl | ⟨2, _⟩ => rfl)

/-- A per-row quantity broadcast over the channels is read at (b, n, 0): the mean inside the variance. -/
theorem idx_v20_ix (b : Fin 32) (n : Fin 2048) (d : Fin 1024) :
    idx_main_v20 (ix3 b n d) = ix3 b n (⟨0, Nat.one_pos⟩ : Fin 1) :=
  funext fun a => Fin.ext (by match a with | ⟨0, _⟩ => rfl | ⟨1, _⟩ => rfl | ⟨2, _⟩ => rfl)

/-- Likewise the mean inside the centred row. -/
theorem idx_v27_ix (b : Fin 32) (n : Fin 2048) (d : Fin 1024) :
    idx_main_v27 (ix3 b n d) = ix3 b n (⟨0, Nat.one_pos⟩ : Fin 1) :=
  funext fun a => Fin.ext (by match a with | ⟨0, _⟩ => rfl | ⟨1, _⟩ => rfl | ⟨2, _⟩ => rfl)

/-- Likewise the reciprocal root. -/
theorem idx_v32_ix (b : Fin 32) (n : Fin 2048) (d : Fin 1024) :
    idx_main_v32 (ix3 b n d) = ix3 b n (⟨0, Nat.one_pos⟩ : Fin 1) :=
  funext fun a => Fin.ext (by match a with | ⟨0, _⟩ => rfl | ⟨1, _⟩ => rfl | ⟨2, _⟩ => rfl)

/-- The scale, broadcast twice, is read at channel d. -/
theorem idx_v34_v35_ix (b : Fin 32) (n : Fin 2048) (d : Fin 1024) : idx_main_v34 (idx_main_v35 (ix3 b n d)) = ix1 d :=
  funext fun a => Fin.ext (by match a with | ⟨0, _⟩ => rfl)

/-- The shift, broadcast twice, is read at channel d. -/
theorem idx_v37_v38_ix (b : Fin 32) (n : Fin 2048) (d : Fin 1024) : idx_main_v37 (idx_main_v38 (ix3 b n d)) = ix1 d :=
  funext fun a => Fin.ext (by match a with | ⟨0, _⟩ => rfl)

/-! ### The stages -/

/-- The site gate at (n, d): the contraction over the 256 static features plus the bias. -/
theorem city_eq (x1 : (⟨S2048x256, .f32⟩ : BufTy).Contents (Elt Ideal)) (x4 : (⟨S1024x256, .f32⟩ : BufTy).Contents (Elt Ideal))
    (x5 : (⟨S1024, .f32⟩ : BufTy).Contents (Elt Ideal)) (n : Fin 2048) (d : Fin 1024) :
    val_main_v12 (F := Ideal) x1 x4 x5 (ix2 n d) = FeatDecoder.cityAt x1 x4 x5 n d := by
  rw [val_main_v12_apply, val_main_v9_apply, val_main_v11_apply, val_main_v10_apply, idx_v10_v11_ix, Ideal.addf_def]
  unfold FeatDecoder.cityAt
  refine congrArg (· + _) (Finset.sum_congr rfl fun k _ => ?_)
  rw [lidx_v9_ix, ridx_v9_ix]

/-- The dense layer at (b, n, d): the contraction over the 512 input features plus the bias. -/
theorem feat_eq (x0 : (⟨S32x2048x512, .f32⟩ : BufTy).Contents (Elt Ideal)) (x2 : (⟨S1024x512, .f32⟩ : BufTy).Contents (Elt Ideal))
    (x3 : (⟨S1024, .f32⟩ : BufTy).Contents (Elt Ideal)) (b : Fin 32) (n : Fin 2048) (d : Fin 1024) :
    val_main_v3 (F := Ideal) x0 x2 x3 (ix3 b n d) = FeatDecoder.featAt x0 x2 x3 b n d := by
  rw [val_main_v3_apply, val_main_v0_apply, val_main_v2_apply, val_main_v1_apply, idx_v1_v2_ix, Ideal.addf_def]
  unfold FeatDecoder.featAt
  refine congrArg (· + _) (Finset.sum_congr rfl fun k _ => ?_)
  rw [lidx_v0_ix, ridx_v0_ix]

/-- The rectified dense layer at (b, n, d): the select on the sign test is the leaky rectifier. -/
theorem leaky_eq (x0 : (⟨S32x2048x512, .f32⟩ : BufTy).Contents (Elt Ideal)) (x2 : (⟨S1024x512, .f32⟩ : BufTy).Contents (Elt Ideal))
    (x3 : (⟨S1024, .f32⟩ : BufTy).Contents (Elt Ideal)) (b : Fin 32) (n : Fin 2048) (d : Fin 1024) :
    val_main_v8 (F := Ideal) x0 x2 x3 (ix3 b n d) = FeatDecoder.leaky (FeatDecoder.featAt x0 x2 x3 b n d) := by
  rw [val_main_v8_apply, val_main_v5_apply, val_main_v7_apply, val_main_v4_apply, val_main_v6_apply,
    val_main_cst_apply, val_main_cst_0_apply, feat_eq]
  rfl

/-- The gated activation at (b, n, d). -/
theorem gated_eq (x0 : (⟨S32x2048x512, .f32⟩ : BufTy).Contents (Elt Ideal)) (x1 : (⟨S2048x256, .f32⟩ : BufTy).Contents (Elt Ideal))
    (x2 : (⟨S1024x512, .f32⟩ : BufTy).Contents (Elt Ideal)) (x3 : (⟨S1024, .f32⟩ : BufTy).Contents (Elt Ideal))
    (x4 : (⟨S1024x256, .f32⟩ : BufTy).Contents (Elt Ideal)) (x5 : (⟨S1024, .f32⟩ : BufTy).Contents (Elt Ideal))
    (b : Fin 32) (n : Fin 2048) (d : Fin 1024) :
    val_main_v15 (F := Ideal) x0 x1 x2 x3 x4 x5 (ix3 b n d)
      = FeatDecoder.gatedAt x0 x2 x3 (FeatDecoder.cityArr x1 x4 x5) b n d := by
  rw [val_main_v15_apply, leaky_eq, val_main_v14_apply, val_main_v13_apply, idx_v13_v14_ix, city_eq]
  rfl

/-- The mean over the channels at (b, n): the sum of the gated row over the pattern of 1024. -/
theorem mean_eq (x0 : (⟨S32x2048x512, .f32⟩ : BufTy).Contents (Elt Ideal)) (x1 : (⟨S2048x256, .f32⟩ : BufTy).Contents (Elt Ideal))
    (x2 : (⟨S1024x512, .f32⟩ : BufTy).Contents (Elt Ideal)) (x3 : (⟨S1024, .f32⟩ : BufTy).Contents (Elt Ideal))
    (x4 : (⟨S1024x256, .f32⟩ : BufTy).Contents (Elt Ideal)) (x5 : (⟨S1024, .f32⟩ : BufTy).Contents (Elt Ideal))
    (b : Fin 32) (n : Fin 2048) (e : Fin 1) :
    val_main_v19 (F := Ideal) x0 x1 x2 x3 x4 x5 (ix3 b n e)
      = FeatDecoder.meanOf (fun k => FeatDecoder.gatedAt x0 x2 x3 (FeatDecoder.cityArr x1 x4 x5) b n k) := by
  rw [val_main_v19_apply, val_main_v17_apply, val_main_v16_apply, val_main_v18_apply, val_main_cst_1_apply,
    val_main_cst_2_apply, Ideal.ofBits_def, Ideal.ofBits_zero_f32, zero_add, Ideal.hostDivf_def, Ideal.ofBits_def]
  unfold FeatDecoder.meanOf
  refine congrArg (Ideal.div · _) (Finset.sum_congr rfl fun k _ => ?_)
  rw [idx_v16_v17_ix, gated_eq]

/-- The variance over the channels at (b, n): the mean of the squared centred row. -/
theorem var_eq (x0 : (⟨S32x2048x512, .f32⟩ : BufTy).Contents (Elt Ideal)) (x1 : (⟨S2048x256, .f32⟩ : BufTy).Contents (Elt Ideal))
    (x2 : (⟨S1024x512, .f32⟩ : BufTy).Contents (Elt Ideal)) (x3 : (⟨S1024, .f32⟩ : BufTy).Contents (Elt Ideal))
    (x4 : (⟨S1024x256, .f32⟩ : BufTy).Contents (Elt Ideal)) (x5 : (⟨S1024, .f32⟩ : BufTy).Contents (Elt Ideal))
    (b : Fin 32) (n : Fin 2048) (e : Fin 1) :
    val_main_v26 (F := Ideal) x0 x1 x2 x3 x4 x5 (ix3 b n e)
      = FeatDecoder.meanOf (fun k =>
          (FeatDecoder.gatedAt x0 x2 x3 (FeatDecoder.cityArr x1 x4 x5) b n k
              - FeatDecoder.meanOf (fun k => FeatDecoder.gatedAt x0 x2 x3 (FeatDecoder.cityArr x1 x4 x5) b n k))
            * (FeatDecoder.gatedAt x0 x2 x3 (FeatDecoder.cityArr x1 x4 x5) b n k
              - FeatDecoder.meanOf (fun k => FeatDecoder.gatedAt x0 x2 x3 (FeatDecoder.cityArr x1 x4 x5) b n k))) := by
  rw [val_main_v26_apply, val_main_v24_apply, val_main_v23_apply, val_main_v25_apply, val_main_cst_3_apply,
    val_main_cst_4_apply, Ideal.ofBits_def, Ideal.ofBits_zero_f32, zero_add, Ideal.hostDivf_def, Ideal.ofBits_def]
  refine congrArg (Ideal.div · _) (Finset.sum_congr rfl fun k _ => ?_)
  rw [idx_v23_v24_ix, val_main_v22_apply, val_main_v21_apply, val_main_v20_apply, idx_v20_ix, gated_eq, mean_eq,
    Ideal.mulf_def, Ideal.subf_def]

/-- The reference's result, read one operation at a time, is the decoder's function of its eight arguments. -/
theorem ref_eq (x0 : (⟨S32x2048x512, .f32⟩ : BufTy).Contents (Elt Ideal)) (x1 : (⟨S2048x256, .f32⟩ : BufTy).Contents (Elt Ideal))
    (x2 : (⟨S1024x512, .f32⟩ : BufTy).Contents (Elt Ideal)) (x3 : (⟨S1024, .f32⟩ : BufTy).Contents (Elt Ideal))
    (x4 : (⟨S1024x256, .f32⟩ : BufTy).Contents (Elt Ideal)) (x5 x6 x7 : (⟨S1024, .f32⟩ : BufTy).Contents (Elt Ideal)) :
    val_main_v39 (F := Ideal) x0 x1 x2 x3 x4 x5 x6 x7
      = FeatDecoder.outArr x0 x2 x3 (FeatDecoder.cityArr x1 x4 x5) x6 x7 := by
  funext i
  obtain ⟨b, n, d, rfl⟩ : ∃ b n d, i = ix3 b n d := ⟨i 0, i 1, i 2, eq_ix3 i⟩
  rw [val_main_v39_apply, val_main_v36_apply, val_main_v33_apply, val_main_v28_apply, val_main_v27_apply,
    val_main_v32_apply, val_main_v31_apply, val_main_v30_apply, val_main_v29_apply, val_main_cst_5_apply,
    val_main_v35_apply, val_main_v34_apply, val_main_v38_apply, val_main_v37_apply,
    idx_v27_ix, idx_v32_ix, idx_v34_v35_ix, idx_v37_v38_ix, gated_eq, mean_eq, var_eq]
  rfl

end Cert.ReferenceIdeal.RefValue

end
-- ==== Proof.lean ====
/-
  The feature decoder — a dense layer with a leaky rectifier, gated per site and channel by a second, smaller dense
  layer, then normalized over the 1024 channels and scaled and shifted per channel — as a two-launch kernel program
  against its plain array reference, over the extended reals.

  Both programs compute, at every (batch entry, site, channel), the same function of the eight argument arrays
  (`FeatDecoder.outArr` over `FeatDecoder.cityArr`): the kernel program narrows four arguments to bf16 first (the identity at
  the extended reals), computes the gate blockwise in a first launch (256 sites at a time) and the normalized gated
  activation blockwise in a second launch (8 batch entries × 256 sites at a time, all channels of a row in one block, so a
  row's mean and variance are taken inside the block); the reference computes each as one whole-array operation. A
  matrix product into a zero accumulator and the host's product are the same finite sum, a lane sum and the host's
  reduction (from the zero initial value) are the same finite sum, and every literal (the slope, the divisor 1024, the
  epsilon) is the same binary pattern on both sides, so no law of arithmetic beyond that is used and the precondition
  (finite inputs) is never opened.

  The frames of the two kernel programs are the generated ones; the reference's frame is its generated run with the
  result dropped; the kernel program's idealization rewrote no operation, so `preserves` is trivial.
-/
import proofs.«134022_j47029891891861_1_alg».proof.Defs
import proofs.«134022_j47029891891861_1_alg».proof.Proof.Gen.Kernel
import proofs.«134022_j47029891891861_1_alg».proof.Proof.Gen.Kernel.Skeleton
import proofs.«134022_j47029891891861_1_alg».proof.Proof.Gen.Kernel.Launch
import proofs.«134022_j47029891891861_1_alg».proof.Proof.Gen.Kernel.Points
import proofs.«134022_j47029891891861_1_alg».proof.Proof.Gen.Kernel.Frame
import proofs.«134022_j47029891891861_1_alg».proof.Proof.Gen.KernelIdeal
import proofs.«134022_j47029891891861_1_alg».proof.Proof.Gen.KernelIdeal.Skeleton
import proofs.«134022_j47029891891861_1_alg».proof.Proof.Gen.KernelIdeal.Launch
import proofs.«134022_j47029891891861_1_alg».proof.Proof.Gen.KernelIdeal.Points
import proofs.«134022_j47029891891861_1_alg».proof.Proof.Gen.KernelIdeal.Frame
import proofs.«134022_j47029891891861_1_alg».proof.Proof.Gen.ReferenceIdeal
import proofs.«134022_j47029891891861_1_alg».proof.Proof.Gen.Pre_finite_inputs
import proofs.«134022_j47029891891861_1_alg».proof.Proof.Gen.ReferenceIdeal.Run
import proofs.«134022_j47029891891861_1_alg».proof.Proof.Gen.ReferenceIdeal.Read
import proofs.«134022_j47029891891861_1_alg».proof.Proof.Spec
import proofs.«134022_j47029891891861_1_alg».proof.Proof.KernelRun
import proofs.«134022_j47029891891861_1_alg».proof.Proof.KernelValue
import proofs.«134022_j47029891891861_1_alg».proof.Proof.RefIsSpec
import Idealize.ShloMosaic.Adequacy
import Idealize.ShloMosaic.Init

noncomputable section

namespace Cert.Proof

open Idealize.ShloMosaic Idealize.SL.Sem

/-- The reference terminates with its arguments unchanged: its generated run, the result dropped. -/
theorem frame_reference [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- From memories that agree on the arguments both programs end with the decoder's function of the arguments in their
    result arrays: the kernel program by its run with the result named and the two launches' values, the reference by its
    run read one operation at a time. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => FeatDecoder.outArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (FeatDecoder.cityArr
        (m ((c.tc : Thread Cert.KernelIdeal.nD Cert.KernelIdeal.τ).loc Cert.KernelIdeal.main_arg1))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KernelValue.result_eq m ρ c), (h c).2⟩)
      (Cert.KernelIdeal.Run.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7⟩ := hagree c
    rw [Cert.ReferenceIdeal.Read.val_main_v39_eq, Cert.ReferenceIdeal.RefValue.ref_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_reference,
    trivial,
    algebraic⟩

end Cert.Proof

end
